-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2048 : Shape := ⟨1, ![2048]⟩
abbrev S100000x256 : Shape := ⟨2, ![100000, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_

variable [Facts]

def fn {F : FTy → Type} [FloatOps F] (main_arg0 : FVec F S2048x256 .f32) (main_arg1 : IVec S2048 32) (main_arg2 : FVec F S100000x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  main_v8
-- ==== Kernel.lean ====
abbrev S2048x256 : Shape := ⟨2, ![2048, 256]⟩
abbrev S2048 : Shape := ⟨1, ![2048]⟩
abbrev S100000x256 : Shape := ⟨2, ![100000, 256]⟩
abbrev S_ : Shape := ⟨0, ![]⟩
abbrev S2048x1 : Shape := ⟨2, ![2048, 1]⟩
abbrev S102400x256 : Shape := ⟨2, ![102400, 256]⟩
abbrev S2048x102400 : Shape := ⟨2, ![2048, 102400]⟩
abbrev S512x256 : Shape := ⟨2, ![512, 256]⟩
abbrev S4096x256 : Shape := ⟨2, ![4096, 256]⟩
abbrev S512x4096 : Shape := ⟨2, ![512, 4096]⟩
abbrev S2048x100000 : Shape := ⟨2, ![2048, 100000]⟩

abbrev nBuf : Space → Nat
  | .hbm => 20
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S2048, .i32⟩
  | .hbm, ⟨2, _⟩ => ⟨S100000x256, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x256, .f32⟩
  | .hbm, ⟨12, _⟩ => ⟨S2048x256, .f32⟩
  | .hbm, ⟨13, _⟩ => ⟨S2048x256, .bf16⟩
  | .hbm, ⟨14, _⟩ => ⟨S100000x256, .bf16⟩
  | .hbm, ⟨15, _⟩ => ⟨S_, .i32⟩
  | .hbm, ⟨16, _⟩ => ⟨S_, .bf16⟩
  | .hbm, ⟨17, _⟩ => ⟨S102400x256, .bf16⟩
  | .hbm, ⟨18, _⟩ => ⟨S2048x102400, .f32⟩
  | .hbm, ⟨19, _⟩ => ⟨S2048x100000, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S512x4096, .f32⟩
  | .local _ .vmem, ⟨5, _⟩ => ⟨S512x4096, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  bitsLt_bf16_f32 : FTy.bits .bf16 < FTy.bits .f32
  pads_S100000x256_S102400x256_024000_000 : S100000x256.Pads (![0, 0] : Fin 2 → Nat) ![2400, 0] ![0, 0] S102400x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S512x4096_S512x4096_0_0 : ∀ a, (![0, 0] : Fin 2 → Nat) a + S512x4096.size a ≤ S512x4096.size a
  h_S512x4096 : 0 < S512x4096.numel
  slices_S2048x102400_S2048x100000_0_0 : S2048x102400.Slices ![0, 0] S2048x100000
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x256.size a
  hwx0_0 : ∀ i : grid0.Coords, EltTy.bits .bf16 = 32 ∨ (Rect.block (s := S2048x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S102400x256.size a
  hwx0_1 : ∀ i : grid0.Coords, EltTy.bits .bf16 = 32 ∨ (Rect.block (s := S102400x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S2048x102400.size a
  hwx0_2 : ∀ i : grid0.Coords, EltTy.bits .f32 = 32 ∨ (Rect.block (s := S2048x102400) S512x4096.size (cc0_transform_2 i) (hinb0_2 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v8) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x256 : Shape := ⟨2, ![2048, 256]⟩
abbrev S2048 : Shape := ⟨1, ![2048]⟩
abbrev S100000x256 : Shape := ⟨2, ![100000, 256]⟩
abbrev S_ : Shape := ⟨0, ![]⟩
abbrev S2048x1 : Shape := ⟨2, ![2048, 1]⟩
abbrev S2048x100000 : Shape := ⟨2, ![2048, 100000]⟩

abbrev nBuf : Space → Nat
  | .hbm => 14
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048, .i32⟩
  | .hbm, ⟨2, _⟩ => ⟨S100000x256, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x256, .f32⟩
  | .hbm, ⟨12, _⟩ => ⟨S2048x256, .f32⟩
  | .hbm, ⟨13, _⟩ => ⟨S2048x100000, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]

class Facts₀ : Prop where
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  dot_S2048x256_S100000x256_S2048x100000_1_1_0_0_n_n_wf : DotDims.WF S2048x256 S100000x256 S2048x100000 [1] [1] [0] [0] [] []

variable [Facts₀]

def dot_S2048x256_S100000x256_S2048x100000_1_1_0_0_n_n : DotDims S2048x256 S100000x256 S2048x100000 where
  lhsContracting := [1]
  rhsContracting := [1]
  lhsNonContracting := [0]
  rhsNonContracting := [0]
  lhsBatch := []
  rhsBatch := []
  wf := dot_S2048x256_S100000x256_S2048x100000_1_1_0_0_n_n_wf

class Facts : Prop extends Facts₀ where

variable [Facts]
-- ==== Proof.RowDots.lean ====
/-
  The function both programs compute: every row of a [2048, 256] array dotted with every row of a bank of
  `N` rows of 256 entries. Entry (b, n) is the sum over k of a(b, k) · f(n, k): the product of `a` with the
  transpose of `f`, on the extended reals, the 256 products of an entry added as one finite sum.
-/
import Idealize.ShloMosaic.Lib.ValueIdx
import Idealize.ShloMosaic.PureOps.Ideal

noncomputable section

namespace Cert.RowDots

open Idealize.ShloMosaic Idealize.ShloMosaic.ValueIdx

/-- Row `b` of `a` dotted with row `n` of the bank `f`. -/
def rowDot (N : Nat) (a : (⟨2, ![2048, 256]⟩ : Shape).Idx → EReal) (f : (⟨2, ![N, 256]⟩ : Shape).Idx → EReal)
    (b : Fin 2048) (n : Fin N) : EReal :=
  ∑ k : Fin 256, a (ix2 b k) * f (ix2 n k)

/-- All of them, as one array [2048, N]. -/
def rowDots (N : Nat) (a : (⟨2, ![2048, 256]⟩ : Shape).Idx → EReal) (f : (⟨2, ![N, 256]⟩ : Shape).Idx → EReal) :
    (⟨2, ![2048, N]⟩ : Shape).Idx → EReal :=
  fun i => rowDot N a f (i 0) (i 1)

theorem rowDots_ix2 (N : Nat) (a : (⟨2, ![2048, 256]⟩ : Shape).Idx → EReal) (f : (⟨2, ![N, 256]⟩ : Shape).Idx → EReal)
    (b : Fin 2048) (n : Fin N) : rowDots N a f (ix2 b n) = rowDot N a f b n := rfl

/-- A dot product only reads the two rows: banks that agree on row `n` (of one) and row `n'` (of the other)
    give the same entry. -/
theorem rowDot_congr {N N' : Nat} (a : (⟨2, ![2048, 256]⟩ : Shape).Idx → EReal)
    (f : (⟨2, ![N, 256]⟩ : Shape).Idx → EReal) (f' : (⟨2, ![N', 256]⟩ : Shape).Idx → EReal)
    (b : Fin 2048) (n : Fin N) (n' : Fin N') (h : ∀ k : Fin 256, f (ix2 n k) = f' (ix2 n' k)) :
    rowDot N a f b n = rowDot N' a f' b n' :=
  Finset.sum_congr rfl fun k _ => by rw [h k]

end Cert.RowDots

end
-- ==== Proof.ReferenceDots.lean ====
/-
  The reference's result is the array of row dot products of the normalised rows with the bank: its
  `dot_general` contracts axis 1 of both operands, so entry (b, n) is the sum over k of xn(b, k) · f(n, k).
-/
import proofs.«166330_j67473936220402_1_alg».proof.Proof.Gen.ReferenceIdeal.Read
import proofs.«166330_j67473936220402_1_alg».proof.Proof.RowDots

noncomputable section

namespace Cert.ReferenceIdeal.RefValue

open Idealize.ShloMosaic Idealize.ShloMosaic.ValueIdx Cert.ReferenceIdeal Cert.ReferenceIdeal.Read Cert.RowDots

/-- The rows divided by the larger of their Euclidean norm and the small constant, as the reference computes them. -/
abbrev normalised (x : S2048x256.Idx → EReal) : S2048x256.Idx → EReal := val_main_v4 (F := Ideal) x

theorem result_eq (x : S2048x256.Idx → EReal) (f : S100000x256.Idx → EReal) :
    val_main_v5 (F := Ideal) x f = rowDots 100000 (normalised x) f := by
  funext i
  rw [val_main_v5_apply]
  show _ = rowDot 100000 (normalised x) f (i 0) (i 1)
  unfold rowDot
  refine Finset.sum_congr rfl fun k _ => ?_
  have el : lidx_main_v5 i k = ix2 (i 0) k := funext fun a => Fin.ext (by match a with | ⟨0, _⟩ => rfl | ⟨1, _⟩ => rfl)
  have er : ridx_main_v5 i k = ix2 (i 1) k := funext fun a => Fin.ext (by match a with | ⟨0, _⟩ => rfl | ⟨1, _⟩ => rfl)
  rw [el, er]
  rfl

end Cert.ReferenceIdeal.RefValue

end
-- ==== Proof.BlockDots.lean ====
/-
  What one grid point of the region computes. The body multiplies its [512, 256] block of the normalised rows with
  its [4096, 256] block of the padded bank, contracting axis 1 of both, into a zero accumulator: entry (p, q) of
  the block it stores is the sum over k of (row block)(p, k) · (bank block)(q, k). Point t's row block is block
  (t's first coordinate) of the rows and its bank block is block (t's second coordinate) of the bank, so what the
  point writes back is its [512, 4096] block of the array of all row dot products.
-/
import proofs.«166330_j67473936220402_1_alg».proof.Proof.Gen.KernelIdeal.Frame
import proofs.«166330_j67473936220402_1_alg».proof.Proof.RowDots
import Idealize.ShloMosaic.Lib.Pipeline.Value
import Idealize.ShloMosaic.Lib.ValueIdx
import Idealize.ShloMosaic.PureOps.Ideal.Laws

set_option maxRecDepth 16384

noncomputable section

namespace Cert.KernelIdeal.BlockDots

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowDots

/-! ## The body's product at an index -/

theorem lhs_axis0 (i : S512x4096.Idx) (q : dot_S512x256_S4096x256_S512x4096_1_1_0_0_n_n.contr.Idx) :
    (dot_S512x256_S4096x256_S512x4096_1_1_0_0_n_n.lhsIdx i q 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem lhs_axis1 (i : S512x4096.Idx) (q : dot_S512x256_S4096x256_S512x4096_1_1_0_0_n_n.contr.Idx) :
    (dot_S512x256_S4096x256_S512x4096_1_1_0_0_n_n.lhsIdx i q 1).val = (q ⟨0, by decide⟩).val :=
  dot_S512x256_S4096x256_S512x4096_1_1_0_0_n_n.lhsIdx_val_of_single rfl i q
theorem rhs_axis0 (i : S512x4096.Idx) (q : dot_S512x256_S4096x256_S512x4096_1_1_0_0_n_n.contr.Idx) :
    (dot_S512x256_S4096x256_S512x4096_1_1_0_0_n_n.rhsIdx i q 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem rhs_axis1 (i : S512x4096.Idx) (q : dot_S512x256_S4096x256_S512x4096_1_1_0_0_n_n.contr.Idx) :
    (dot_S512x256_S4096x256_S512x4096_1_1_0_0_n_n.rhsIdx i q 1).val = (q ⟨0, by decide⟩).val :=
  dot_S512x256_S4096x256_S512x4096_1_1_0_0_n_n.rhsIdx_val_of_single rfl i q

/-- Entry (p, q) of the block the body stores: row p of its row block dotted with row q of its bank block. -/
theorem product_apply (x0 : Vec Ideal S512x256 .bf16) (x1 : Vec Ideal S4096x256 .bf16) (p : Fin 512) (q : Fin 4096) :
    k0_pay1 (F := Ideal) x0 x1 (ix2 p q) = ∑ k : Fin 256, (x0 (ix2 p k) : EReal) * (x1 (ix2 q k) : EReal) := by
  unfold k0_pay1
  rw [shapeCast_self, shapeCast_self]
  simp only [matmul]
  rw [Ideal.matmul_constant_zero_apply, ← Equiv.sum_comp (ValueIdx.contrEquiv1 dot_S512x256_S4096x256_S512x4096_1_1_0_0_n_n 256 rfl rfl).symm]
  refine Finset.sum_congr rfl fun k _ => ?_
  have hk := ValueIdx.contrEquiv1_symm_val dot_S512x256_S4096x256_S512x4096_1_1_0_0_n_n 256 rfl rfl k
  have el : dot_S512x256_S4096x256_S512x4096_1_1_0_0_n_n.lhsIdx (ix2 p q) ((ValueIdx.contrEquiv1 dot_S512x256_S4096x256_S512x4096_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S512x256_S4096x256_S512x4096_1_1_0_0_n_n.rhsIdx (ix2 p q) ((ValueIdx.contrEquiv1 dot_S512x256_S4096x256_S512x4096_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-! ## What a point writes back -/

variable (m : (ℓ : Loc nD τ sig) → Buf (Elt Ideal) ℓ)

theorem offsets_zero : (![0, 0] : Fin 2 → Nat) = fun _ => 0 := funext fun a => by fin_cases a <;> rfl

/-- The printed index maps over the grid: the row window moves with the output's first block coordinate, the bank
    window with its second, neither moves along the contracted axis; and the output's block coordinates stay in range. -/
theorem block_coords : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 24 :=
  (by decide +kernel : ∀ t : Fin grid0.N, _)

/-- The region's two input arrays, at their literal types. -/
abbrev rows (c : Dev nD) : FVec Ideal S2048x256 .bf16 := V m c main_v8
abbrev bank (c : Dev nD) : FVec Ideal S102400x256 .bf16 := V m c main_v10

/-- The array of all row dot products of the region's two arrays. -/
abbrev products (c : Dev nD) : S2048x102400.Idx → EReal :=
  rowDots 102400 (rows m c) (bank m c)

/-- Point `t` writes back block `t` of the array of row dot products. -/
theorem flushed_eq (c : Dev nD) (t : Fin cfg0.N) :
    (dats m 0 c).flushed 2 t = ((cfg0.win 2).blk t).view.read (Elt Ideal) (products m c) := by
  show (cfg0.win 2).cut (grid0.coords t) ((dats m 0 c).after 2 t) = _
  rw [after0_2]
  unfold out0_2
  rw [View.canon_unit_zero offsets_zero]
  simp only [View.ld_unit_zero (S := S512x256) offsets_zero, View.ld_unit_zero (S := S4096x256) offsets_zero]
  obtain ⟨e0, e1, e2, e3, e4, e5⟩ := block_coords t
  funext j
  obtain ⟨p, q, rfl⟩ : ∃ (p : Fin 512) (q : Fin 4096), j = ix2 p q := ⟨j 0, j 1, @eq_ix2 512 4096 j⟩
  show k0_pay1 (F := Ideal) (iblk m c 0 t) (iblk m c 1 t) (ix2 p q) = products m c (((cfg0.win 2).blk t).view.emb (ix2 p q))
  refine (product_apply (iblk m c 0 t) (iblk m c 1 t) p q).trans ?_
  show _ = rowDot 102400 _ _ ((((cfg0.win 2).blk t).view.emb (ix2 p q)) 0) ((((cfg0.win 2).blk t).view.emb (ix2 p q)) 1)
  unfold rowDot
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 256 + 1 * k.val = k.val; omega
  have h1 : ((cfg0.win 1).blk t).view.emb (ix2 q k) = ix2 ((((cfg0.win 2).blk t).view.emb (ix2 p q)) 1) k := by
    funext a; apply Fin.ext
    match a with
    | ⟨0, _⟩ => show win0_1.index t (0 : Fin 2) * 4096 + 1 * q.val = win0_2.index t (1 : Fin 2) * 4096 + 1 * q.val; omega
    | ⟨1, _⟩ => show win0_1.index t (1 : Fin 2) * 256 + 1 * k.val = k.val; omega
  have f0 : (iblk m c 0 t (ix2 p k) : EReal) = rows m c (ix2 ((((cfg0.win 2).blk t).view.emb (ix2 p q)) 0) k) :=
    (show (iblk m c 0 t (ix2 p k) : EReal) = rows m c (((cfg0.win 0).blk t).view.emb (ix2 p k)) from rfl).trans
      (congrArg (rows m c) h0)
  have f1 : (iblk m c 1 t (ix2 q k) : EReal) = bank m c (ix2 ((((cfg0.win 2).blk t).view.emb (ix2 p q)) 1) k) :=
    (show (iblk m c 1 t (ix2 q k) : EReal) = bank m c (((cfg0.win 1).blk t).view.emb (ix2 q k)) from rfl).trans
      (congrArg (bank m c) h1)
  exact congrArg₂ (fun (a b : EReal) => a * b) f0 f1

end Cert.KernelIdeal.BlockDots

end
-- ==== Proof.TiledProduct.lean ====
/-
  The output's [512, 4096] blocks tile the [2048, 102400] array: 4 blocks of rows by 25 blocks of columns, one per
  grid point. Entry (r, s) lies in the block of the point whose block coordinates are (r / 512, s / 4096). Every
  point writes its block back, and each block is that block of the array of row dot products, so after the
  region the whole array is the array of row dot products of the normalised rows with the padded bank.
-/
import proofs.«166330_j67473936220402_1_alg».proof.Proof.BlockDots

set_option maxRecDepth 16384

noncomputable section

namespace Cert.KernelIdeal.TiledProduct

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowDots Cert.KernelIdeal.BlockDots

variable (m : (ℓ : Loc nD τ sig) → Buf (Elt Ideal) ℓ)

/-- An index of the array is in point `t`'s block iff each coordinate is in the block's range on its axis. -/
theorem mem_block (t : Fin cfg0.N) (i : S2048x102400.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v11).slice (win0_2.rect t)).set ↔ _
  rw [View.set_slice_whole, Rect.mem_set_unit]
  exact Iff.rfl

/-- Every pair of block coordinates is some point's. -/
theorem block_onto : ∀ (q0 : Fin 4) (q1 : Fin 25), ∃ t : Fin cfg0.N, win0_2.index t = ![q0.val, q1.val] :=
  (by decide +kernel : ∀ (q0 : Fin 4) (q1 : Fin 25), ∃ t : Fin grid0.N, win0_2.index t = ![q0.val, q1.val])

/-- Every index of the array is in the block some point writes back. -/
theorem covered (i : S2048x102400.Idx) :
    ∃ t : Fin cfg0.N, (cfg0.win 2).flush t = true ∧ i ∈ ((cfg0.win 2).blk t).view.set := by
  have hi0 : (i 0).val < 2048 := (i 0).isLt
  have hi1 : (i 1).val < 102400 := (i 1).isLt
  obtain ⟨t, ht⟩ := block_onto ⟨(i 0).val / 512, by omega⟩ ⟨(i 1).val / 4096, by omega⟩
  have q0 : win0_2.index t (0 : Fin 2) = (i 0).val / 512 := congrFun ht 0
  have q1 : win0_2.index t (1 : Fin 2) = (i 1).val / 4096 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The output array after the region: all the row dot products. -/
theorem final (c : Dev nD) : (dats m 0 c).arrAt 2 cfg0.N = products m c :=
  (dats m 0 c).arrAt_eq_of_cover 2 (products m c) (fun t _ => flushed_eq m c t) covered

end Cert.KernelIdeal.TiledProduct

end
-- ==== Proof.HostArrays.lean ====
/-
  The two arrays the kernel's region is launched on, as the host lines before it leave them: the rows of the
  first argument divided by the larger of their Euclidean norm and the small constant (the change of float
  format is the identity on the extended reals), and the bank with 2400 rows of the padding value appended
  after its 100000 rows. Read at an index: the normalised row entry; and, at a row below 100000, the bank's own.
-/
import proofs.«166330_j67473936220402_1_alg».proof.Proof.Gen.KernelIdeal.Frame
import Idealize.ShloMosaic.Lib.StableHlo.Run
import Idealize.ShloMosaic.Lib.ValueIdx
import Idealize.ShloMosaic.Lib.KernelVsHost

noncomputable section

namespace Cert.KernelIdeal.HostArrays

open Idealize.ShloMosaic Idealize.ShloMosaic.TcCoe Idealize.ShloMosaic.ValueIdx Idealize.SL.Sem
open Idealize.ShloMosaic.StableHlo Cert.KernelIdeal Cert.KernelIdeal.Gen

variable (m : (ℓ : Loc nD τ sig) → Buf (Elt Ideal) ℓ)

/-- The rows divided by the larger of their Euclidean norm and the small constant, as the host lines compute them. -/
def normalised (x : FVec Ideal S2048x256 .f32) : FVec Ideal S2048x256 .f32 :=
  Host.divf x (broadcastInDim S2048x256 ![0, 1] bcast_S2048x1_S2048x256_0_1
    (maximumf (Host.sqrt (broadcastInDim S2048x1 ![0] bcast_S2048_S2048x1_0
        (Host.reduceAdd (mulf x x) (constant (F := Ideal) S_ .f32 0x00000000#32) reducesTo_S2048x256_S2048_d1 h_S_)))
      (broadcastInDim S2048x1 ![] bcast_S_S2048x1 (constant (F := Ideal) S_ .f32 0x2B8CBCCC#32))))

/-- The first window's array: the normalised rows. -/
theorem rows_eq (c : Dev nD) :
    (V m c main_v8 : FVec Ideal S2048x256 .bf16)
      = truncf .bf16 (normalised (m ((c : Thread nD τ).loc main_arg0))) bitsLt_bf16_f32 := by
  dsimp only [Gen.V, Gen.V0]
  simp only [Gen.hostOps0, Gen.hostOps0_1, List.flatten_cons, List.flatten_nil, List.append_nil, List.cons_append,
    List.nil_append]
  after_results
  rfl

/-- The second window's array: the bank, padded at the high end of its row axis. -/
theorem bank_eq (c : Dev nD) :
    (V m c main_v10 : FVec Ideal S102400x256 .bf16)
      = pad S102400x256 ![0, 0] ![2400, 0] ![0, 0]
          (truncf .bf16 (m ((c : Thread nD τ).loc main_arg2) : FVec Ideal S100000x256 .f32) bitsLt_bf16_f32 : FVec Ideal S100000x256 .bf16)
          (sitofp (F := Ideal) .bf16 (constantI S_ 32 0#32)) pads_S100000x256_S102400x256_024000_000 h_S_ := by
  dsimp only [Gen.V, Gen.V0]
  simp only [Gen.hostOps0, Gen.hostOps0_1, List.flatten_cons, List.flatten_nil, List.append_nil, List.cons_append,
    List.nil_append]
  after_results
  rfl

theorem rows_apply (c : Dev nD) (b : Fin 2048) (k : Fin 256) :
    (V m c main_v8 : FVec Ideal S2048x256 .bf16) (ix2 b k) = normalised (m ((c : Thread nD τ).loc main_arg0)) (ix2 b k) := by
  rw [rows_eq]
  rfl

/-- A row of the padded bank below 100000 is the bank's row. -/
theorem bank_apply (c : Dev nD) (n : Fin 102400) (n' : Fin 100000) (hn : n.val = n'.val) (k : Fin 256) :
    (V m c main_v10 : FVec Ideal S102400x256 .bf16) (ix2 n k)
      = (m ((c : Thread nD τ).loc main_arg2) : FVec Ideal S100000x256 .f32) (ix2 n' k) := by
  rw [bank_eq]
  refine (pad_apply_of_inside _ _ _ _ _ pads_S100000x256_S102400x256_024000_000 h_S_ (ix2 n k) (ix2 n' k) fun a => ?_).trans rfl
  match a with
  | ⟨0, _⟩ => show n.val = 0 + n'.val * (0 + 1); omega
  | ⟨1, _⟩ => show k.val = 0 + k.val * (0 + 1); omega

end Cert.KernelIdeal.HostArrays

end
-- ==== Proof.SlicedResult.lean ====
/-
  The kernel's result: after the region the host keeps columns 0 to 99999 of the [2048, 102400] array of row dot
  products. Column n below 100000 is the dot product with row n of the padded bank, which is row n of the bank
  itself, so the result is the array of row dot products of the normalised rows with the bank; the appended rows
  are never read. The run of the whole program is re-posted with that array as its first result.
-/
import proofs.«166330_j67473936220402_1_alg».proof.Proof.TiledProduct
import proofs.«166330_j67473936220402_1_alg».proof.Proof.HostArrays

noncomputable section

namespace Cert.KernelIdeal.SlicedResult

open Idealize.ShloMosaic Idealize.ShloMosaic.TcCoe Idealize.ShloMosaic.ValueIdx Idealize.SL.Sem
open Idealize.ShloMosaic.StableHlo
open Cert.KernelIdeal Cert.KernelIdeal.Gen Cert.RowDots Cert.KernelIdeal.BlockDots Cert.KernelIdeal.HostArrays

variable (m : (ℓ : Loc nD τ sig) → Buf (Elt Ideal) ℓ) (ρ : Dev nD → PrngReg)

/-- The two arguments the result depends on, at their literal types. -/
abbrev argRows (c : Dev nD) : FVec Ideal S2048x256 .f32 := m ((c : Thread nD τ).loc main_arg0)
abbrev argBank (c : Dev nD) : FVec Ideal S100000x256 .f32 := m ((c : Thread nD τ).loc main_arg2)

/-- The kernel's result as a function of its arguments. -/
abbrev result (c : Dev nD) : S2048x100000.Idx → EReal :=
  rowDots 100000 (normalised (argRows m c)) (argBank m c)

/-- A kept column of the array of products is a row dot product with the bank itself. -/
theorem products_kept (c : Dev nD) (b : Fin 2048) (n : Fin 100000) (n' : Fin 102400) (hn : n'.val = n.val) :
    products m c (ix2 b n') = result m c (ix2 b n) := by
  show rowDot 102400 (rows m c) (bank m c) b n' = rowDot 100000 (normalised (argRows m c)) (argBank m c) b n
  unfold rowDot
  refine Finset.sum_congr rfl fun k _ => ?_
  exact congrArg₂ (fun (x y : EReal) => x * y) (rows_apply m c b k) (bank_apply m c n' n hn k)

/-- What the host line after the region leaves in the result buffer. -/
theorem result_eq (c : Dev nD) :
    Pipeline.afterTail₀ cfgs (dats m) 0 (V0 m) [hostOps1] c main_v12 = result m c := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.devRef .tc main_v11) = products m c from
    (Pipeline.withArrays_arr spec0 launch0.win.arr_inj c _ _ 2).trans (TiledProduct.final m c)]
  funext i
  obtain ⟨b, n, rfl⟩ : ∃ (b : Fin 2048) (n : Fin 100000), i = ix2 b n := ⟨i 0, i 1, @eq_ix2 2048 100000 i⟩
  refine (extractStridedSlice_apply _ _ slices_S2048x102400_S2048x100000_0_0 (ix2 b n) (ix2 b ⟨n.val, by omega⟩) fun a => ?_).trans
    (products_kept m c b n ⟨n.val, by omega⟩ rfl)
  match a with
  | ⟨0, _⟩ => show b.val = 0 + b.val; omega
  | ⟨1, _⟩ => show n.val = 0 + n.val; omega

/-- The run, re-posted: the first result is the array of row dot products, the arguments are unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (result_eq m c),
      ((h c).2 main_arg2 (Pipeline.mem_restRefs_of main_arg2 (by decide) (by decide))).trans (W_main_arg2 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.SlicedResult

end
-- ==== Proof.lean ====
/-
  The kernel normalises the rows of a [2048, 256] array (each row divided by the larger of its Euclidean norm and a
  small constant) on the host, pads a bank of 100000 rows of 256 entries to 102400 rows, multiplies the normalised
  rows with the transpose of the padded bank block by block — a grid of 4 by 25 blocks of [512, 4096], each the
  product of a [512, 256] block of rows with a [4096, 256] block of the bank into a zero accumulator — and keeps
  the first 100000 columns. The reference normalises the rows the same way and contracts them with the bank in one
  `dot_general`. On the extended reals both results are, at entry (b, n), the sum over k of xn(b, k) · f(n, k):
  the change of float format is the identity, a product into a zero accumulator is the bare sum, the blocks tile
  the array, and a kept column never reads an appended row. The sums are the same sum term by term, so no
  law of the extended reals beyond 0 + s = s is used and the precondition is never opened.

  The three frames are the generated frame runs (the reference's is its generated run with the result dropped),
  and the kernel's idealization rewrote nothing.
-/
import proofs.«166330_j67473936220402_1_alg».proof.Defs
import proofs.«166330_j67473936220402_1_alg».proof.Proof.Gen.Kernel
import proofs.«166330_j67473936220402_1_alg».proof.Proof.Gen.Kernel.Skeleton
import proofs.«166330_j67473936220402_1_alg».proof.Proof.Gen.Kernel.Launch
import proofs.«166330_j67473936220402_1_alg».proof.Proof.Gen.Kernel.Points
import proofs.«166330_j67473936220402_1_alg».proof.Proof.Gen.Kernel.Frame
import proofs.«166330_j67473936220402_1_alg».proof.Proof.Gen.KernelIdeal
import proofs.«166330_j67473936220402_1_alg».proof.Proof.Gen.KernelIdeal.Skeleton
import proofs.«166330_j67473936220402_1_alg».proof.Proof.Gen.KernelIdeal.Launch
import proofs.«166330_j67473936220402_1_alg».proof.Proof.Gen.KernelIdeal.Points
import proofs.«166330_j67473936220402_1_alg».proof.Proof.Gen.KernelIdeal.Frame
import proofs.«166330_j67473936220402_1_alg».proof.Proof.Gen.ReferenceIdeal
import proofs.«166330_j67473936220402_1_alg».proof.Proof.Gen.Pre_finite_inputs
import proofs.«166330_j67473936220402_1_alg».proof.Proof.Gen.ReferenceIdeal.Run
import proofs.«166330_j67473936220402_1_alg».proof.Proof.Gen.ReferenceIdeal.Read
import proofs.«166330_j67473936220402_1_alg».proof.Proof.ReferenceDots
import proofs.«166330_j67473936220402_1_alg».proof.Proof.SlicedResult
import Idealize.ShloMosaic.Adequacy
import Idealize.ShloMosaic.Init

noncomputable section

namespace Cert.Proof

open Idealize.ShloMosaic Idealize.SL.Sem

/-- The two programs normalise the rows by the same operations: the kernel's host lines and the reference's are
    one term. -/
theorem normalised_eq (x : FVec Ideal Cert.KernelIdeal.S2048x256 .f32) :
    Cert.KernelIdeal.HostArrays.normalised x = Cert.ReferenceIdeal.RefValue.normalised x := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the array of row dot products of the normalised rows with the bank, and the bank
    itself, from arguments that agree. -/
theorem algebraic : Cert.algebraic_KernelIdeal_ReferenceIdeal := by
  intro m ρ m' ρ' _ hagree
  refine ⟨fun c => Cert.KernelIdeal.SlicedResult.result m c,
    fun c => m ((c.tc : Thread Cert.KernelIdeal.nD Cert.KernelIdeal.τ).loc Cert.KernelIdeal.main_arg2),
    Cert.KernelIdeal.SlicedResult.run m ρ, ?_⟩
  refine (θ_run Cert.ReferenceIdeal.defs _ _).mono (fun _ h c => ⟨(h c).1.trans ?_, (h c).2.1.trans (hagree c).2.2, (h c).2.2⟩)
    (Cert.ReferenceIdeal.Value.run (F := Ideal) m' ρ')
  rw [Cert.ReferenceIdeal.Read.val_main_v5_eq, Cert.ReferenceIdeal.RefValue.result_eq, (hagree c).1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
